-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg5 : FVec F S16x4096 .f32) (main_arg6 : FVec F S4096x16 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg6
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S8192x4096 .f32) (main_arg1 : IVec S4096x256 32) (main_arg2 : FVec F S4096 .f32) (main_arg3 : FVec F S4096 .f32) (main_arg4 : FVec F S4096 .f32) (main_arg5 : FVec F S16x4096 .f32) (main_arg6 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S8192x4096 : Shape := ⟨2, ![8192, 4096]⟩
abbrev S4096x256 : Shape := ⟨2, ![4096, 256]⟩
abbrev S4096 : Shape := ⟨1, ![4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x256x1 : Shape := ⟨3, ![4096, 256, 1]⟩
abbrev S1x1x16 : Shape := ⟨3, ![1, 1, 16]⟩
abbrev S4096x256x16 : Shape := ⟨3, ![4096, 256, 16]⟩
abbrev S4096x4096 : Shape := ⟨2, ![4096, 4096]⟩
abbrev S1x4096 : Shape := ⟨2, ![1, 4096]⟩
abbrev S8192x16 : Shape := ⟨2, ![8192, 16]⟩
abbrev S256x4096 : Shape := ⟨2, ![256, 4096]⟩
abbrev S1024x4096 : Shape := ⟨2, ![1024, 4096]⟩
abbrev S1x1024 : Shape := ⟨2, ![1, 1024]⟩
abbrev S256x16 : Shape := ⟨2, ![256, 16]⟩
abbrev S1024x16 : Shape := ⟨2, ![1024, 16]⟩
abbrev S256x1024 : Shape := ⟨2, ![256, 1024]⟩
abbrev S256 : Shape := ⟨1, ![256]⟩
abbrev S256x1 : Shape := ⟨2, ![256, 1]⟩

abbrev nBuf : Space → Nat
  | .hbm => 31
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x256, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S4096x256x1, .i32⟩
  | .hbm, ⟨12, _⟩ => ⟨S1x1x16, .i32⟩
  | .hbm, ⟨13, _⟩ => ⟨S4096x256x16, .i32⟩
  | .hbm, ⟨14, _⟩ => ⟨S4096x256x16, .i32⟩
  | .hbm, ⟨15, _⟩ => ⟨S4096x256x16, .i32⟩
  | .hbm, ⟨16, _⟩ => ⟨S_, .i32⟩
  | .hbm, ⟨17, _⟩ => ⟨S4096x256x16, .i32⟩
  | .hbm, ⟨18, _⟩ => ⟨S4096x256x16, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .bf16⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S4096x16, .bf16⟩
  | .hbm, ⟨28, _⟩ => ⟨S8192x16, .f32⟩
  | .hbm, ⟨29, _⟩ => ⟨S8192x16, .bf16⟩
  | .hbm, ⟨30, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x16, .bf16⟩
  | .local _ .vmem, ⟨11, _⟩ => ⟨S256x16, .bf16⟩
  | .local _ .vmem, ⟨12, _⟩ => ⟨S1024x16, .bf16⟩
  | .local _ .vmem, ⟨13, _⟩ => ⟨S1024x16, .bf16⟩
  | .local _ .vmem, ⟨14, _⟩ => ⟨S256x1024, .f32⟩
  | .local _ .vmem, ⟨15, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16 : S_.BroadcastsInDim S16 (![] : Fin 0 → Fin S16.rank)
  bcast_S4096x256_S4096x256x1_0_1 : S4096x256.BroadcastsInDim S4096x256x1 (![0, 1] : Fin 2 → Fin S4096x256x1.rank)
  bcast_S16_S1x1x16_2 : S16.BroadcastsInDim S1x1x16 (![2] : Fin 1 → Fin S1x1x16.rank)
  bcast_S4096x256x1_S4096x256x16_0_1_2 : S4096x256x1.BroadcastsInDim S4096x256x16 (![0, 1, 2] : Fin 3 → Fin S4096x256x16.rank)
  bcast_S1x1x16_S4096x256x16_0_1_2 : S1x1x16.BroadcastsInDim S4096x256x16 (![0, 1, 2] : Fin 3 → Fin S4096x256x16.rank)
  bcast_S_S4096x256x16 : S_.BroadcastsInDim S4096x256x16 (![] : Fin 0 → Fin S4096x256x16.rank)
  shapeCasts_S4096x256x16_S4096x4096 : S4096x256x16.ShapeCasts S4096x4096
  bcast_S_S4096x4096 : S_.BroadcastsInDim S4096x4096 (![] : Fin 0 → Fin S4096x4096.rank)
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  dot_S8192x4096_S16x4096_S8192x16_1_1_0_0_n_n_wf : DotDims.WF S8192x4096 S16x4096 S8192x16 [1] [1] [0] [0] [] []
  dot_S256x4096_S1024x4096_S256x1024_1_1_0_0_n_n_wf : DotDims.WF S256x4096 S1024x4096 S256x1024 [1] [1] [0] [0] [] []
  dot_S256x16_S1024x16_S256x1024_1_1_0_0_n_n_wf : DotDims.WF S256x16 S1024x16 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S8192x16.size a
  hwx0_5 : ∀ i : grid0.Coords, EltTy.bits .bf16 = 32 ∨ (Rect.block (s := S8192x16) S256x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x16.size a ≤ S4096x16.size a
  hwx0_6 : ∀ i : grid0.Coords, EltTy.bits .bf16 = 32 ∨ (Rect.block (s := S4096x16) S1024x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x4096.size a
  hwx0_7 : ∀ i : grid0.Coords, EltTy.bits .f32 = 32 ∨ (Rect.block (s := S8192x4096) S256x1024.size (cc0_transform_7 i) (hinb0_7 i)).WholeWords (EltTy.packing .f32)

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1024x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S4096 : Shape := ⟨1, ![4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x256x1 : Shape := ⟨3, ![4096, 256, 1]⟩
abbrev S1x1x16 : Shape := ⟨3, ![1, 1, 16]⟩
abbrev S4096x256x16 : Shape := ⟨3, ![4096, 256, 16]⟩
abbrev S4096x4096 : Shape := ⟨2, ![4096, 4096]⟩
abbrev S1x4096 : Shape := ⟨2, ![1, 4096]⟩
abbrev S8192 : Shape := ⟨1, ![8192]⟩
abbrev S8192x1 : Shape := ⟨2, ![8192, 1]⟩
abbrev S8192x16 : Shape := ⟨2, ![8192, 16]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S4096x256x1, .i32⟩
  | .hbm, ⟨12, _⟩ => ⟨S1x1x16, .i32⟩
  | .hbm, ⟨13, _⟩ => ⟨S4096x256x16, .i32⟩
  | .hbm, ⟨14, _⟩ => ⟨S4096x256x16, .i32⟩
  | .hbm, ⟨15, _⟩ => ⟨S4096x256x16, .i32⟩
  | .hbm, ⟨16, _⟩ => ⟨S_, .i32⟩
  | .hbm, ⟨17, _⟩ => ⟨S4096x256x16, .i32⟩
  | .hbm, ⟨18, _⟩ => ⟨S4096x256x16, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x16, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S4096x256_S4096x256x1_0_1 : S4096x256.BroadcastsInDim S4096x256x1 (![0, 1] : Fin 2 → Fin S4096x256x1.rank)
  bcast_S16_S1x1x16_2 : S16.BroadcastsInDim S1x1x16 (![2] : Fin 1 → Fin S1x1x16.rank)
  bcast_S4096x256x1_S4096x256x16_0_1_2 : S4096x256x1.BroadcastsInDim S4096x256x16 (![0, 1, 2] : Fin 3 → Fin S4096x256x16.rank)
  bcast_S1x1x16_S4096x256x16_0_1_2 : S1x1x16.BroadcastsInDim S4096x256x16 (![0, 1, 2] : Fin 3 → Fin S4096x256x16.rank)
  bcast_S_S4096x256x16 : S_.BroadcastsInDim S4096x256x16 (![] : Fin 0 → Fin S4096x256x16.rank)
  shapeCasts_S4096x256x16_S4096x4096 : S4096x256x16.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Tile.lean ====
/-
  One output tile of the layer, entry by entry.

  A tile is `256` tokens by `1024` output features.  From the tile's operands — the `256 × 4096` block of `x`,
  the `1024 × 4096` block of the weights, the three `1 × 1024` rows of scale, shift and bias, the `256 × 16`
  block of the projection and the `1024 × 16` block of `B` — entry `(p, q)` of the tile is

    (∑ₖ x[p,k] · W[q,k]) · a[q] + (∑ₖ x[p,k]) · s[q] + 1 · (∑ᵣ u[p,r] · B[q,r]) + b[q].

  Both matrix products contract the LAST axis of both operands (no transpose is formed), so the sum over the
  contraction index reads the left operand at `(p, k)` and the right one at `(q, k)`.  Rounding to a shorter float
  format is the identity on extended reals, a product accumulated into zero is the bare sum, the row sum kept as a
  `256 × 1` column and broadcast along the features is the row sum at `p`, and a `1 × 1024` row broadcast along the
  tokens is the row at `q`.
-/
import proofs.«420316_j34686155882822_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## The wide product: `256 × 4096` by `1024 × 4096`, contracting the 4096 axis of both -/

theorem wide_lhs_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem wide_lhs_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem wide_rhs_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem wide_rhs_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- Entry `(p, q)` of the wide product accumulated into zero: `∑ₖ l[p,k] · r[q,k]`. -/
theorem wide_apply (l : FVec Ideal S256x4096 .bf16) (r : FVec Ideal S1024x4096 .bf16) (p : Fin 256) (q : Fin 1024) :
    matmul dot_S256x4096_S1024x4096_S256x1024_1_1_0_0_n_n none l r (constant (F := Ideal) S256x1024 .f32 0x00000000#32) (ix2 p q)
      = ∑ k : Fin 4096, l (ix2 p k) * r (ix2 q k) := by
  simp only [matmul]
  rw [Ideal.matmul_constant_zero_apply, ← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx (ix2 p q) ((ValueIdx.contrEquiv1 dot_S256x4096_S1024x4096_S256x1024_1_1_0_0_n_n 4096 rfl rfl).symm k) = ix2 p k := funext fun a => Fin.ext (by
    match a with
    | ⟨0, _⟩ => exact wide_lhs_0 _ _
    | ⟨1, _⟩ => exact (wide_lhs_1 _ _).trans hk)
  have er : dot_S256x4096_S1024x4096_S256x1024_1_1_0_0_n_n.rhsIdx (ix2 p q) ((ValueIdx.contrEquiv1 dot_S256x4096_S1024x4096_S256x1024_1_1_0_0_n_n 4096 rfl rfl).symm k) = ix2 q k := funext fun a => Fin.ext (by
    match a with
    | ⟨0, _⟩ => exact wide_rhs_0 _ _
    | ⟨1, _⟩ => exact (wide_rhs_1 _ _).trans hk)
  rw [el, er]

/-! ## The narrow product: `256 × 16` by `1024 × 16`, contracting the rank axis of both -/

theorem narrow_lhs_0 (i : S256x1024.Idx) (q : dot_S256x16_S1024x16_S256x1024_1_1_0_0_n_n.contr.Idx) :
    (dot_S256x16_S1024x16_S256x1024_1_1_0_0_n_n.lhsIdx i q 0).val = (i 0).val := by
  unfold DotDims.lhsIdx
  rw [dif_neg (show ¬(0 : Fin S256x16.rank) ∈ dot_S256x16_S1024x16_S256x1024_1_1_0_0_n_n.lhsBatch by decide), dif_pos (show (0 : Fin S256x16.rank) ∈ dot_S256x16_S1024x16_S256x1024_1_1_0_0_n_n.lhsNonContracting by decide)]
  rfl
theorem narrow_lhs_1 (i : S256x1024.Idx) (q : dot_S256x16_S1024x16_S256x1024_1_1_0_0_n_n.contr.Idx) :
    (dot_S256x16_S1024x16_S256x1024_1_1_0_0_n_n.lhsIdx i q 1).val = (q ⟨0, by decide⟩).val :=
  dot_S256x16_S1024x16_S256x1024_1_1_0_0_n_n.lhsIdx_val_of_single rfl i q
theorem narrow_rhs_0 (i : S256x1024.Idx) (q : dot_S256x16_S1024x16_S256x1024_1_1_0_0_n_n.contr.Idx) :
    (dot_S256x16_S1024x16_S256x1024_1_1_0_0_n_n.rhsIdx i q 0).val = (i 1).val := by
  unfold DotDims.rhsIdx
  rw [dif_neg (show ¬(0 : Fin S1024x16.rank) ∈ dot_S256x16_S1024x16_S256x1024_1_1_0_0_n_n.rhsBatch by decide), dif_pos (show (0 : Fin S1024x16.rank) ∈ dot_S256x16_S1024x16_S256x1024_1_1_0_0_n_n.rhsNonContracting by decide)]
  rfl
theorem narrow_rhs_1 (i : S256x1024.Idx) (q : dot_S256x16_S1024x16_S256x1024_1_1_0_0_n_n.contr.Idx) :
    (dot_S256x16_S1024x16_S256x1024_1_1_0_0_n_n.rhsIdx i q 1).val = (q ⟨0, by decide⟩).val :=
  dot_S256x16_S1024x16_S256x1024_1_1_0_0_n_n.rhsIdx_val_of_single rfl i q

/-- Entry `(p, q)` of the narrow product accumulated into zero: `∑ᵣ l[p,r] · r[q,r]`. -/
theorem narrow_apply (l : FVec Ideal S256x16 .bf16) (r : FVec Ideal S1024x16 .bf16) (p : Fin 256) (q : Fin 1024) :
    matmul dot_S256x16_S1024x16_S256x1024_1_1_0_0_n_n none l r (constant (F := Ideal) S256x1024 .f32 0x00000000#32) (ix2 p q)
      = ∑ k : Fin 16, l (ix2 p k) * r (ix2 q k) := by
  simp only [matmul]
  rw [Ideal.matmul_constant_zero_apply, ← Equiv.sum_comp (ValueIdx.contrEquiv1 dot_S256x16_S1024x16_S256x1024_1_1_0_0_n_n 16 rfl rfl).symm]
  refine Finset.sum_congr rfl fun k _ => ?_
  have hk := ValueIdx.contrEquiv1_symm_val dot_S256x16_S1024x16_S256x1024_1_1_0_0_n_n 16 rfl rfl k
  have el : dot_S256x16_S1024x16_S256x1024_1_1_0_0_n_n.lhsIdx (ix2 p q) ((ValueIdx.contrEquiv1 dot_S256x16_S1024x16_S256x1024_1_1_0_0_n_n 16 rfl rfl).symm k) = ix2 p k := funext fun a => Fin.ext (by
    match a with
    | ⟨0, _⟩ => exact narrow_lhs_0 _ _
    | ⟨1, _⟩ => exact (narrow_lhs_1 _ _).trans hk)
  have er : dot_S256x16_S1024x16_S256x1024_1_1_0_0_n_n.rhsIdx (ix2 p q) ((ValueIdx.contrEquiv1 dot_S256x16_S1024x16_S256x1024_1_1_0_0_n_n 16 rfl rfl).symm k) = ix2 q k := funext fun a => Fin.ext (by
    match a with
    | ⟨0, _⟩ => exact narrow_rhs_0 _ _
    | ⟨1, _⟩ => exact (narrow_rhs_1 _ _).trans hk)
  rw [el, er]

/-! ## The row sum, kept as a column and broadcast along the features -/

/-- The sum of row `p` of a `256 × 4096` block. -/
theorem rowsum_apply (v : FVec Ideal S256x4096 .f32) (hφ : FKind.Formats .f32)
    (hacc : (0x00000000#32 : BitVec 32) = 0x00000000#32) (p : Fin 256) :
    multiReduction .add [1] S256 v 0x00000000#32 reduces_S256x4096_S256 hφ hacc (ix1 p) = ∑ k : Fin 4096, v (ix2 p k) := by
  refine (Ideal.multiReduction_add_single v 0x00000000#32 reduces_S256x4096_S256 hφ hacc (ix1 p)).trans ?_
  refine Finset.sum_congr rfl fun k _ => congrArg v (funext fun a => Fin.ext ?_)
  match a with
  | ⟨0, _⟩ => rfl
  | ⟨1, _⟩ => rfl

/-- A `256`-vector laid out as a `256 × 1` column reads, at `(p, 0)`, the vector at `p`. -/
theorem column_apply {α : Type} (v : S256.Idx → α) (p : Fin 256) (z : Fin 1) :
    shapeCast S256x1 v shapeCasts_S256_S256x1 (ix2 p z) = v (ix1 p) :=
  shapeCast_apply v shapeCasts_S256_S256x1 _ _ (by
    have hz : z.val = 0 := by omega
    rw [Shape.rowMajor_val_two, Shape.rowMajor_val_one]
    show p.val = p.val * 1 + z.val
    omega)

/-- A `256 × 1` column broadcast along `1024` features reads, at `(p, q)`, the column at `p`. -/
theorem along_features_apply {α : Type} (v : S256x1.Idx → α) (p : Fin 256) (q : Fin 1024) :
    broadcastTo S256x1024 v broadcasts_S256x1_S256x1024 (ix2 p q) = v (ix2 p (0 : Fin 1)) := by
  refine broadcastTo_apply v broadcasts_S256x1_S256x1024 (ix2 p q) (ix2 p (0 : Fin 1)) fun ax => ?_
  match ax with
  | ⟨0, _⟩ => show p.val = if (256 : Nat) = 1 then 0 else p.val; rw [if_neg (by decide)]
  | ⟨1, _⟩ => show 0 = if (1 : Nat) = 1 then 0 else q.val; rw [if_pos rfl]

/-- A `1 × 1024` row broadcast along `256` tokens reads, at `(p, q)`, the row at `q`. -/
theorem along_tokens_apply {α : Type} (v : S1x1024.Idx → α) (p : Fin 256) (q : Fin 1024) :
    broadcastTo S256x1024 v broadcasts_S1x1024_S256x1024 (ix2 p q) = v (ix2 (0 : Fin 1) q) :=
  broadcastTo_1b_ab_apply v broadcasts_S1x1024_S256x1024 p q

end Cert.KernelIdeal.Tile

end
-- ==== Proof.TileEntry.lean ====
/-
  The tile's arithmetic, assembled: entry `(p, q)` of what one grid point stores, as a formula in the entries of the
  point's seven operand blocks.
-/
import proofs.«420316_j34686155882822_3_alg».proof.Proof.Tile

noncomputable section

namespace Cert.KernelIdeal.Tile

open Cert.KernelIdeal Cert.KernelIdeal.Gen Idealize.ShloMosaic Idealize.ShloMosaic.ValueIdx

/-- The scalar one the low-rank term is multiplied by, as an extended real: the float word itself. -/
theorem one_word : Scalar.ofBits (F := Ideal) .f32 0x3F800000#32 = Ideal.ofBits .f32 0x3F800000#32 := rfl

/-- Entry `(p, q)` of the stored tile. -/
theorem entry (v0 : Vec Ideal S256x4096 .f32) (v4 : Vec Ideal S1024x4096 .bf16) (v7 : Vec Ideal S256x16 .bf16)
    (v9 : Vec Ideal S1024x16 .bf16) (v12 v16 v25 : Vec Ideal S1x1024 .f32) (p : Fin 256) (q : Fin 1024) :
    k0_pay1 (F := Ideal) v0 v4 v7 v9 v12 v16 v25 (ix2 p q)
      = (((∑ k : Fin 4096, v0 (ix2 p k) * v4 (ix2 q k)) * v12 (ix2 (0 : Fin 1) q)
          + (∑ k : Fin 4096, v0 (ix2 p k)) * v16 (ix2 (0 : Fin 1) q))
        + Ideal.ofBits .f32 0x3F800000#32 * (∑ r : Fin 16, v7 (ix2 p r) * v9 (ix2 q r)))
      + v25 (ix2 (0 : Fin 1) q) := by
  unfold k0_pay1
  dsimp only
  simp only [addf_apply, mulf_apply, broadcast_apply, along_tokens_apply, along_features_apply, column_apply,
    shapeCast_self, wide_apply, narrow_apply, rowsum_apply, truncf_apply, one_word]
  rw [rowsum_apply]

end Cert.KernelIdeal.Tile

end
-- ==== Proof.Spec.lean ====
/-
  A ternary linear layer with a low-rank correction, as one function of its arrays.

  For tokens `t` and output features `o` the layer computes

    y[t, o] = (∑ₖ x[t,k] · W[o,k]) · α[o] + (∑ₖ x[t,k]) · μ[o] + 1 · (∑ᵣ u[t,r] · B[o,r]) + β[o]

  where `W` is the ternary weight matrix, `α` the per-row scale, `μ` the per-row shift applied to the
  row sum of `x`, `u = x Aᵀ` the rank-16 projection, and `β` the bias.  `blended` states this over the
  arrays a tiled evaluation reads (row vectors as `1 × 4096` arrays, `u` already formed); `layer` states it
  over the layer's own parameters, with `u[t,r] = ∑ₖ x[t,k] · A[r,k]` written out.  The factor in front of the
  low-rank term is kept as the float word both programs carry; nothing here evaluates it.
-/
import Idealize.ShloMosaic.PureOps.Ideal
import Idealize.ShloMosaic.Lib.ValueIdx

noncomputable section

namespace TernaryLayer

open Idealize.ShloMosaic Idealize.ShloMosaic.ValueIdx

/-- Tokens by features, `8192 × 4096` (input and output have the same extents). -/
abbrev TokFeat : Shape := ⟨2, ![8192, 4096]⟩
/-- The weight matrix, `4096 × 4096` (output feature, input feature). -/
abbrev Weights : Shape := ⟨2, ![4096, 4096]⟩
/-- A per-output-feature vector laid out as one row. -/
abbrev Row : Shape := ⟨2, ![1, 4096]⟩
/-- A per-output-feature vector. -/
abbrev Feat : Shape := ⟨1, ![4096]⟩
/-- Tokens by rank. -/
abbrev TokRank : Shape := ⟨2, ![8192, 16]⟩
/-- Rank by input features (`A`). -/
abbrev RankFeat : Shape := ⟨2, ![16, 4096]⟩
/-- Output features by rank (`B`). -/
abbrev FeatRank : Shape := ⟨2, ![4096, 16]⟩

/-- The layer over the arrays a tiled evaluation reads: `a`, `s`, `b` are the scale, shift and bias as `1 × 4096`
    rows and `U` is the projection `x Aᵀ`. -/
def blended (X : TokFeat.Idx → EReal) (W : Weights.Idx → EReal) (a s b : Row.Idx → EReal)
    (U : TokRank.Idx → EReal) (B : FeatRank.Idx → EReal) : TokFeat.Idx → EReal := fun i =>
  (((∑ k : Fin 4096, X (ix2 (i 0) k) * W (ix2 (i 1) k)) * a (ix2 (0 : Fin 1) (i 1))
      + (∑ k : Fin 4096, X (ix2 (i 0) k)) * s (ix2 (0 : Fin 1) (i 1)))
    + Ideal.ofBits .f32 0x3F800000#32 * (∑ r : Fin 16, U (ix2 (i 0) r) * B (ix2 (i 1) r)))
  + b (ix2 (0 : Fin 1) (i 1))

/-- The layer over its own parameters. -/
def layer (X : TokFeat.Idx → EReal) (W : Weights.Idx → EReal) (α μ β : Feat.Idx → EReal)
    (A : RankFeat.Idx → EReal) (B : FeatRank.Idx → EReal) : TokFeat.Idx → EReal :=
  blended X W (fun j => α (ix1 (j 1))) (fun j => μ (ix1 (j 1))) (fun j => β (ix1 (j 1)))
    (fun j => ∑ k : Fin 4096, X (ix2 (j 0) k) * A (ix2 (j 1) k)) B

end TernaryLayer

end
-- ==== Proof.Tiling.lean ====
/-
  From tiles to the whole array.

  The grid has `4 × 32` points; point `(n, m)` computes the tile of tokens `256·m … 256·m + 255` and output
  features `1024·n … 1024·n + 1023`.  Its operand blocks are: rows `256·m …` of `x` and of the projection, rows
  `1024·n …` of the weights and of `B`, and columns `1024·n …` of the three rows.  So entry `(p, q)` of the tile,
  which by the tile's arithmetic is a formula in row `p` of the `x` and projection blocks, row `q` of the weight and
  `B` blocks and column `q` of the rows, is the layer's value at array index `(256·m + p, 1024·n + q)`: each block
  entry is the array entry at the block's offset.  The `128` output blocks are pairwise disjoint and cover
  `8192 × 4096`: index `(i₀, i₁)` lies in the block of the point with `m = i₀ / 256`, `n = i₁ / 1024`.  Hence
  the output array ends holding the layer's value at every index.
-/
import proofs.«420316_j34686155882822_3_alg».proof.Proof.Gen.KernelIdeal.Value
import proofs.«420316_j34686155882822_3_alg».proof.Proof.TileEntry
import proofs.«420316_j34686155882822_3_alg».proof.Proof.Spec

set_option maxRecDepth 16384

noncomputable section

namespace Cert.KernelIdeal.Tiling

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each operand at a grid point, against the output's: the token blocks (`x`, the projection)
    move with the output's token block, the feature blocks (weights, `B`, the three rows) with its feature block,
    and every other block coordinate is zero.  Decided over the 128 points. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = win0_7.index t (0 : Fin 2) ∧ win0_5.index t (1 : Fin 2) = 0
    ∧ win0_6.index t (0 : Fin 2) = win0_7.index t (1 : Fin 2) ∧ win0_6.index t (1 : Fin 2) = 0
    ∧ win0_7.index t (0 : Fin 2) ≤ 31 ∧ win0_7.index t (1 : Fin 2) ≤ 3 :=
  (by decide +kernel : ∀ t : Fin grid0.N, _)

/-- Every pair (token block, feature block) is some point's. -/
theorem idx_onto : ∀ (q0 : Fin 32) (q1 : Fin 4), ∃ t : Fin cfg0.N, win0_7.index t = ![q0.val, q1.val] :=
  (by decide +kernel : ∀ (q0 : Fin 32) (q1 : Fin 4), ∃ t : Fin grid0.N, win0_7.index t = ![q0.val, q1.val])

/-! ## Each operand block entry is an array entry -/

theorem xblock_apply (c : Dev nD) (t : Fin cfg0.N) (p : Fin 256) (k : Fin 4096) (i0 : Fin 8192)
    (h0 : i0.val = win0_0.index t (0 : Fin 2) * 256 + p.val) (h1 : win0_0.index t (1 : Fin 2) = 0) :
    (iblk m c 0 t : Vec Ideal S256x4096 .f32) (ix2 p k) = (V m c main_arg0 : S8192x4096.Idx → Elt Ideal .f32) (ix2 i0 k) := by
  unfold iblk
  rw [View.read_apply]
  show V m c main_arg0 _ = V m c main_arg0 _
  refine congrArg _ (funext fun a => Fin.ext ?_)
  match a with
  | ⟨0, _⟩ => show win0_0.index t (0 : Fin 2) * 256 + 1 * p.val = i0.val; omega
  | ⟨1, _⟩ => show win0_0.index t (1 : Fin 2) * 4096 + 1 * k.val = k.val; omega

theorem wblock_apply (c : Dev nD) (t : Fin cfg0.N) (q : Fin 1024) (k : Fin 4096) (i1 : Fin 4096)
    (h0 : i1.val = win0_1.index t (0 : Fin 2) * 1024 + q.val) (h1 : win0_1.index t (1 : Fin 2) = 0) :
    (iblk m c 1 t : Vec Ideal S1024x4096 .bf16) (ix2 q k) = (V m c main_v13 : S4096x4096.Idx → Elt Ideal .bf16) (ix2 i1 k) := by
  unfold iblk
  rw [View.read_apply]
  show V m c main_v13 _ = V m c main_v13 _
  refine congrArg _ (funext fun a => Fin.ext ?_)
  match a with
  | ⟨0, _⟩ => show win0_1.index t (0 : Fin 2) * 1024 + 1 * q.val = i1.val; omega
  | ⟨1, _⟩ => show win0_1.index t (1 : Fin 2) * 4096 + 1 * k.val = k.val; omega

theorem scale_block_apply (c : Dev nD) (t : Fin cfg0.N) (q : Fin 1024) (i1 : Fin 4096)
    (h0 : win0_2.index t (0 : Fin 2) = 0) (h1 : i1.val = win0_2.index t (1 : Fin 2) * 1024 + q.val) :
    (iblk m c 2 t : Vec Ideal S1x1024 .f32) (ix2 (0 : Fin 1) q) = (V m c main_v14 : S1x4096.Idx → Elt Ideal .f32) (ix2 (0 : Fin 1) i1) := by
  unfold iblk
  rw [View.read_apply]
  show V m c main_v14 _ = V m c main_v14 _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = i1.val; omega

theorem shift_block_apply (c : Dev nD) (t : Fin cfg0.N) (q : Fin 1024) (i1 : Fin 4096)
    (h0 : win0_3.index t (0 : Fin 2) = 0) (h1 : i1.val = win0_3.index t (1 : Fin 2) * 1024 + q.val) :
    (iblk m c 3 t : Vec Ideal S1x1024 .f32) (ix2 (0 : Fin 1) q) = (V m c main_v15 : S1x4096.Idx → Elt Ideal .f32) (ix2 (0 : Fin 1) i1) := by
  unfold iblk
  rw [View.read_apply]
  show V m c main_v15 _ = V m c main_v15 _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = i1.val; omega

theorem bias_block_apply (c : Dev nD) (t : Fin cfg0.N) (q : Fin 1024) (i1 : Fin 4096)
    (h0 : win0_4.index t (0 : Fin 2) = 0) (h1 : i1.val = win0_4.index t (1 : Fin 2) * 1024 + q.val) :
    (iblk m c 4 t : Vec Ideal S1x1024 .f32) (ix2 (0 : Fin 1) q) = (V m c main_v16 : S1x4096.Idx → Elt Ideal .f32) (ix2 (0 : Fin 1) i1) := by
  unfold iblk
  rw [View.read_apply]
  show V m c main_v16 _ = V m c main_v16 _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = i1.val; omega

theorem ublock_apply (c : Dev nD) (t : Fin cfg0.N) (p : Fin 256) (r : Fin 16) (i0 : Fin 8192)
    (h0 : i0.val = win0_5.index t (0 : Fin 2) * 256 + p.val) (h1 : win0_5.index t (1 : Fin 2) = 0) :
    (iblk m c 5 t : Vec Ideal S256x16 .bf16) (ix2 p r) = (V m c main_v19 : S8192x16.Idx → Elt Ideal .bf16) (ix2 i0 r) := by
  unfold iblk
  rw [View.read_apply]
  show V m c main_v19 _ = V m c main_v19 _
  refine congrArg _ (funext fun a => Fin.ext ?_)
  match a with
  | ⟨0, _⟩ => show win0_5.index t (0 : Fin 2) * 256 + 1 * p.val = i0.val; omega
  | ⟨1, _⟩ => show win0_5.index t (1 : Fin 2) * 16 + 1 * r.val = r.val; omega

theorem bblock_apply (c : Dev nD) (t : Fin cfg0.N) (q : Fin 1024) (r : Fin 16) (i1 : Fin 4096)
    (h0 : i1.val = win0_6.index t (0 : Fin 2) * 1024 + q.val) (h1 : win0_6.index t (1 : Fin 2) = 0) :
    (iblk m c 6 t : Vec Ideal S1024x16 .bf16) (ix2 q r) = (V m c main_v17 : S4096x16.Idx → Elt Ideal .bf16) (ix2 i1 r) := by
  unfold iblk
  rw [View.read_apply]
  show V m c main_v17 _ = V m c main_v17 _
  refine congrArg _ (funext fun a => Fin.ext ?_)
  match a with
  | ⟨0, _⟩ => show win0_6.index t (0 : Fin 2) * 1024 + 1 * q.val = i1.val; omega
  | ⟨1, _⟩ => show win0_6.index t (1 : Fin 2) * 16 + 1 * r.val = r.val; omega

/-! ## What a point writes back is its block of the layer's value -/

/-- The layer over the arrays as the tiles find them. -/
abbrev value (c : Dev nD) : S8192x4096.Idx → Elt Ideal .f32 :=
  TernaryLayer.blended (V m c main_arg0) (V m c main_v13) (V m c main_v14) (V m c main_v15) (V m c main_v16)
    (V m c main_v19) (V m c main_v17)

theorem flushed_eq (c : Dev nD) (t : Fin cfg0.N) :
    (dats m 0 c).flushed 7 t = ((cfg0.win 7).blk t).view.read (Elt Ideal) (value m c) := by
  rw [Value.flushed7]
  unfold out0_7
  rw [View.canon_unit_zero hz]
  simp only [View.ld_unit_zero (S := S256x4096) hz, View.ld_unit_zero (S := S1024x4096) hz, View.ld_unit_zero (S := S256x16) hz,
    View.ld_unit_zero (S := S1024x16) hz, View.ld_unit_zero (S := S1x1024) hz]
  obtain ⟨e00, e01, e10, e11, e20, e21, e30, e31, e40, e41, e50, e51, e60, e61, b0, b1⟩ := idx_facts t
  refine funext fun (j : S256x1024.Idx) => ?_
  obtain ⟨p, q, rfl⟩ : ∃ (p : Fin 256) (q : Fin 1024), j = ix2 p q := ⟨j 0, j 1, eq_ix2 j⟩
  have hp := p.isLt
  have hq := q.isLt
  obtain ⟨i0, hi0⟩ : ∃ i0 : Fin 8192, i0.val = win0_7.index t (0 : Fin 2) * 256 + p.val := ⟨⟨_, by omega⟩, rfl⟩
  obtain ⟨i1, hi1⟩ : ∃ i1 : Fin 4096, i1.val = win0_7.index t (1 : Fin 2) * 1024 + q.val := ⟨⟨_, by omega⟩, rfl⟩
  have hI : ((cfg0.win 7).blk t).view.emb (ix2 p q) = ix2 i0 i1 := funext fun a => Fin.ext (by
    match a with
    | ⟨0, _⟩ => show win0_7.index t (0 : Fin 2) * 256 + 1 * p.val = i0.val; omega
    | ⟨1, _⟩ => show win0_7.index t (1 : Fin 2) * 1024 + 1 * q.val = i1.val; omega)
  show k0_pay1 (iblk m c 0 t) (iblk m c 1 t) (iblk m c 5 t) (iblk m c 6 t) (iblk m c 2 t) (iblk m c 3 t) (iblk m c 4 t) (ix2 p q)
      = value m c (((cfg0.win 7).blk t).view.emb (ix2 p q))
  refine (Tile.entry _ _ _ _ _ _ _ p q).trans ?_
  refine Eq.trans ?_ (congrArg (value m c) hI).symm
  exact congrArg₂ (· + ·) (congrArg₂ (· + ·) (congrArg₂ (· + ·)
      (congrArg₂ (· * ·)
        (Finset.sum_congr rfl fun k _ => congrArg₂ (· * ·) (xblock_apply m c t p k i0 (by omega) e01) (wblock_apply m c t q k i1 (by omega) e11))
        (scale_block_apply m c t q i1 e20 (by omega)))
      (congrArg₂ (· * ·)
        (Finset.sum_congr rfl fun k _ => xblock_apply m c t p k i0 (by omega) e01)
        (shift_block_apply m c t q i1 e30 (by omega))))
      (congrArg (_ * ·)
        (Finset.sum_congr rfl fun r _ => congrArg₂ (· * ·) (ublock_apply m c t p r i0 (by omega) e51) (bblock_apply m c t q r i1 (by omega) e61))))
    (bias_block_apply m c t q i1 e40 (by omega))

/-! ## The output's blocks cover the array -/

/-- An index of the array is in point `t`'s output block iff each coordinate is in the block's range on its axis. -/
theorem mem_blk (t : Fin cfg0.N) (i : S8192x4096.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v20).slice (win0_7.rect t)).set ↔ _
  rw [View.set_slice_whole, Rect.mem_set_unit]
  exact Iff.rfl

/-- Every index is in the block of the point whose token block is `i₀ / 256` and feature block `i₁ / 1024`. -/
theorem covered (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ := idx_onto ⟨(i 0).val / 256, by omega⟩ ⟨(i 1).val / 1024, by omega⟩
  have q0 : win0_7.index t (0 : Fin 2) = (i 0).val / 256 := congrFun ht 0
  have q1 : win0_7.index t (1 : Fin 2) = (i 1).val / 1024 := congrFun ht 1
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The output array after the run holds the layer's value over the arrays as the tiles found them. -/
theorem final (c : Dev nD) : (dats m 0 c).arrAt 7 cfg0.N = value m c :=
  (dats m 0 c).arrAt_eq_of_cover 7 (value m c) (fun t _ => flushed_eq m c t) covered

/-- The run: the output array at the layer's value, the parameters unchanged. -/
theorem run : θ_run defs (onTc (τ := τ) (main (F := Ideal))) ⟨m, fun _ => 0, ρ⟩ fun r => ∀ c : Dev nD,
      r.2.mem ((c : Thread nD τ).loc main_v20) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Tiling

end
-- ==== Proof.Operands.lean ====
/-
  The arrays the tiled evaluation reads, in terms of the layer's parameters.

  Before the tiles are computed the parameters are prepared once: the packed weights are unpacked to integers in
  `{-1, 0, 1, 2}` and converted to floats, the three per-feature vectors are laid out as `1 × 4096` rows, `B` and
  the projection `u = x Aᵀ` are rounded to a shorter float format.  Over the extended reals a change of float
  format is the identity, so: the rows read the vectors, the rounded `B` is `B`, and the rounded projection at
  `(t, r)` is `∑ₖ x[t,k] · A[r,k]` (the product contracts the last axis of both operands).  The unpacking is kept as
  one integer-valued function `unpack` of the packed words; nothing here looks inside it.
-/
import proofs.«420316_j34686155882822_3_alg».proof.Proof.Gen.KernelIdeal.Frame
import proofs.«420316_j34686155882822_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- The packed words unpacked: word `(o, w)` shifted right by `2·j` and masked to two bits gives code `(o, w, j)`;
    the codes are laid out as row `o` of length `256 · 16 = 4096`; one is subtracted. -/
def unpack (p : (⟨S4096x256, .i32⟩ : BufTy).Contents (Elt F)) : (⟨S4096x4096, .i32⟩ : BufTy).Contents (Elt F) :=
  subi (shapeCast _ (andi (Host.shrsi (broadcastInDim S4096x256x16 ![0, 1, 2] bcast_S4096x256x1_S4096x256x16_0_1_2 (broadcastInDim S4096x256x1 ![0, 1] bcast_S4096x256_S4096x256x1_0_1 p)) (broadcastInDim S4096x256x16 ![0, 1, 2] bcast_S1x1x16_S4096x256x16_0_1_2 (broadcastInDim S1x1x16 ![2] bcast_S16_S1x1x16_2 (muli (iotaInDim S16 32 0) (broadcastInDim S16 ![] bcast_S_S16 (constantI S_ 32 2#32)))))) (broadcastInDim S4096x256x16 ![] bcast_S_S4096x256x16 (constantI S_ 32 3#32))) shapeCasts_S4096x256x16_S4096x4096) (broadcastInDim S4096x4096 ![] bcast_S_S4096x4096 (constantI S_ 32 1#32))

/-- The weight matrix the tiles read: the unpacked integers as floats. -/
theorem weights_eq (c : Dev nD) : V m c main_v13 = sitofp .bf16 (unpack (F := F) (m ((c : Thread nD τ).loc main_arg1))) := by
  dsimp only [Gen.V, Gen.hostOps0]
  after_results
  rfl

/-- The scale as a row. -/
theorem scale_eq (c : Dev nD) : V m c main_v14 = shapeCast _ (m ((c : Thread nD τ).loc main_arg2)) shapeCasts_S4096_S1x4096 := by
  dsimp only [Gen.V, Gen.hostOps0]
  after_results
  rfl

/-- The shift as a row. -/
theorem shift_eq (c : Dev nD) : V m c main_v15 = shapeCast _ (m ((c : Thread nD τ).loc main_arg3)) shapeCasts_S4096_S1x4096 := by
  dsimp only [Gen.V, Gen.hostOps0]
  after_results
  rfl

/-- The bias as a row. -/
theorem bias_eq (c : Dev nD) : V m c main_v16 = shapeCast _ (m ((c : Thread nD τ).loc main_arg4)) shapeCasts_S4096_S1x4096 := by
  dsimp only [Gen.V, Gen.hostOps0]
  after_results
  rfl

/-- `B`, rounded. -/
theorem lowB_eq (c : Dev nD) : V m c main_v17 = truncf .bf16 (m ((c : Thread nD τ).loc main_arg6)) bitsLt_bf16_f32 := by
  dsimp only [Gen.V, Gen.hostOps0]
  after_results

/-- The projection `x Aᵀ`, rounded. -/
theorem proj_eq (c : Dev nD) : V m c main_v19 = truncf .bf16 (Host.dotGeneral dot_S8192x4096_S16x4096_S8192x16_1_1_0_0_n_n none (m ((c : Thread nD τ).loc main_arg0)) (m ((c : Thread nD τ).loc main_arg5))) bitsLt_bf16_f32 := by
  dsimp only [Gen.V, Gen.hostOps0]
  after_results

/-! ## Read at an index, over the extended reals -/

section AtIdeal

variable (mI : (ℓ : Loc nD τ sig) → Buf (Elt Ideal) ℓ)

/-- A per-feature vector laid out as a row reads, at `(0, q)`, the vector at `q`. -/
theorem row_apply (v : S4096.Idx → EReal) (z : Fin 1) (q : Fin 4096) :
    shapeCast S1x4096 v shapeCasts_S4096_S1x4096 (ix2 z q) = v (ix1 q) :=
  shapeCast_a_1a_apply v shapeCasts_S4096_S1x4096 z q

theorem proj_lhs_0 (i : S8192x16.Idx) (q : dot_S8192x4096_S16x4096_S8192x16_1_1_0_0_n_n.contr.Idx) :
    (dot_S8192x4096_S16x4096_S8192x16_1_1_0_0_n_n.lhsIdx i q 0).val = (i 0).val := by
  unfold DotDims.lhsIdx
  rw [dif_neg (show ¬(0 : Fin S8192x4096.rank) ∈ dot_S8192x4096_S16x4096_S8192x16_1_1_0_0_n_n.lhsBatch by decide), dif_pos (show (0 : Fin S8192x4096.rank) ∈ dot_S8192x4096_S16x4096_S8192x16_1_1_0_0_n_n.lhsNonContracting by decide)]
  rfl
theorem proj_lhs_1 (i : S8192x16.Idx) (q : dot_S8192x4096_S16x4096_S8192x16_1_1_0_0_n_n.contr.Idx) :
    (dot_S8192x4096_S16x4096_S8192x16_1_1_0_0_n_n.lhsIdx i q 1).val = (q ⟨0, by decide⟩).val :=
  dot_S8192x4096_S16x4096_S8192x16_1_1_0_0_n_n.lhsIdx_val_of_single rfl i q
theorem proj_rhs_0 (i : S8192x16.Idx) (q : dot_S8192x4096_S16x4096_S8192x16_1_1_0_0_n_n.contr.Idx) :
    (dot_S8192x4096_S16x4096_S8192x16_1_1_0_0_n_n.rhsIdx i q 0).val = (i 1).val := by
  unfold DotDims.rhsIdx
  rw [dif_neg (show ¬(0 : Fin S16x4096.rank) ∈ dot_S8192x4096_S16x4096_S8192x16_1_1_0_0_n_n.rhsBatch by decide), dif_pos (show (0 : Fin S16x4096.rank) ∈ dot_S8192x4096_S16x4096_S8192x16_1_1_0_0_n_n.rhsNonContracting by decide)]
  rfl
theorem proj_rhs_1 (i : S8192x16.Idx) (q : dot_S8192x4096_S16x4096_S8192x16_1_1_0_0_n_n.contr.Idx) :
    (dot_S8192x4096_S16x4096_S8192x16_1_1_0_0_n_n.rhsIdx i q 1).val = (q ⟨0, by decide⟩).val :=
  dot_S8192x4096_S16x4096_S8192x16_1_1_0_0_n_n.rhsIdx_val_of_single rfl i q

/-- Entry `(t, r)` of the projection: `∑ₖ x[t,k] · A[r,k]`. -/
theorem proj_apply (x : FVec Ideal S8192x4096 .f32) (A : FVec Ideal S16x4096 .f32) (t : Fin 8192) (r : Fin 16) :
    Host.dotGeneral dot_S8192x4096_S16x4096_S8192x16_1_1_0_0_n_n none x A (ix2 t r)
      = ∑ k : Fin 4096, x (ix2 t k) * A (ix2 r k) := by
  simp only [Host.dotGeneral]
  rw [Ideal.dotGeneral_apply, ← Equiv.sum_comp (ValueIdx.contrEquiv1 dot_S8192x4096_S16x4096_S8192x16_1_1_0_0_n_n 4096 rfl rfl).symm]
  refine Finset.sum_congr rfl fun k _ => ?_
  have hk := ValueIdx.contrEquiv1_symm_val dot_S8192x4096_S16x4096_S8192x16_1_1_0_0_n_n 4096 rfl rfl k
  have el : dot_S8192x4096_S16x4096_S8192x16_1_1_0_0_n_n.lhsIdx (ix2 t r) ((ValueIdx.contrEquiv1 dot_S8192x4096_S16x4096_S8192x16_1_1_0_0_n_n 4096 rfl rfl).symm k) = ix2 t k := funext fun a => Fin.ext (by
    match a with
    | ⟨0, _⟩ => exact proj_lhs_0 _ _
    | ⟨1, _⟩ => exact (proj_lhs_1 _ _).trans hk)
  have er : dot_S8192x4096_S16x4096_S8192x16_1_1_0_0_n_n.rhsIdx (ix2 t r) ((ValueIdx.contrEquiv1 dot_S8192x4096_S16x4096_S8192x16_1_1_0_0_n_n 4096 rfl rfl).symm k) = ix2 r k := funext fun a => Fin.ext (by
    match a with
    | ⟨0, _⟩ => exact proj_rhs_0 _ _
    | ⟨1, _⟩ => exact (proj_rhs_1 _ _).trans hk)
  rw [el, er]

/-- The layer over the prepared arrays is the layer over its parameters, with the unpacked integers as the weights. -/
theorem prepared_layer (c : Dev nD) :
    TernaryLayer.blended (V mI c main_arg0) (V mI c main_v13) (V mI c main_v14) (V mI c main_v15) (V mI c main_v16)
        (V mI c main_v19) (V mI c main_v17)
      = TernaryLayer.layer (mI ((c : Thread nD τ).loc main_arg0)) (sitofp .bf16 (unpack (F := Ideal) (mI ((c : Thread nD τ).loc main_arg1))) : FVec Ideal S4096x4096 .bf16)
          (mI ((c : Thread nD τ).loc main_arg2)) (mI ((c : Thread nD τ).loc main_arg3)) (mI ((c : Thread nD τ).loc main_arg4))
          (mI ((c : Thread nD τ).loc main_arg5)) (mI ((c : Thread nD τ).loc main_arg6)) := by
  rw [V_main_arg0, weights_eq, scale_eq, shift_eq, bias_eq, proj_eq, lowB_eq]
  funext i
  unfold TernaryLayer.layer TernaryLayer.blended
  simp only [truncf_apply]
  exact congrArg₂ (· + ·) (congrArg₂ (· + ·) (congrArg₂ (· + ·)
      (congrArg₂ (· * ·) rfl (row_apply _ _ _)) (congrArg₂ (· * ·) rfl (row_apply _ _ _)))
      (congrArg (_ * ·) (Finset.sum_congr rfl fun r _ => congrArg₂ (· * ·) (proj_apply _ _ _ _) rfl)))
    (row_apply _ _ _)

end AtIdeal

end Cert.KernelIdeal.Operands

end
-- ==== Proof.Reference.lean ====
/-
  The reference computes the layer.

  Read one operation at a time, entry `(t, o)` of the reference's result is

    ((∑ₖ x[t,k] · W[o,k]) · α[o] + μ[o] · (0 + ∑ₖ x[t,k])) + 1 · (∑ᵣ (∑ₖ x[t,k] · A[r,k]) · B[o,r]) + β[o]

  with `W` the unpacked ternary weights converted to floats.  Against `TernaryLayer.layer` only two things
  differ: the shift term has its factors in the other order, and the row sum starts from the float zero; the first
  is commutativity of the product of extended reals, the second `0 + s = s`.  Neither needs the operands finite.
-/
import proofs.«420316_j34686155882822_3_alg».proof.Proof.Gen.ReferenceIdeal.Read
import proofs.«420316_j34686155882822_3_alg».proof.Proof.Spec

noncomputable section

namespace Cert.ReferenceIdeal.Whole

open Cert.ReferenceIdeal Cert.ReferenceIdeal.Read Idealize.ShloMosaic Idealize.ShloMosaic.ValueIdx

theorem reference_is_layer (x0 : (⟨S8192x4096, .f32⟩ : BufTy).Contents (Elt Ideal)) (x1 : (⟨S4096x256, .i32⟩ : BufTy).Contents (Elt Ideal))
    (x2 x3 x4 : (⟨S4096, .f32⟩ : BufTy).Contents (Elt Ideal)) (x5 : (⟨S16x4096, .f32⟩ : BufTy).Contents (Elt Ideal))
    (x6 : (⟨S4096x16, .f32⟩ : BufTy).Contents (Elt Ideal)) :
    val_main_v32 (F := Ideal) x0 x1 x2 x3 x4 x5 x6
      = TernaryLayer.layer x0 (val_main_v13 (F := Ideal) x1) x2 x3 x4 x5 x6 := by
  funext i
  have eL14 : ∀ k : Fin 4096, lidx_main_v14 i k = ix2 (i 0) k := fun k =>
    funext fun a => Fin.ext (by match a with | ⟨0, _⟩ => rfl | ⟨1, _⟩ => rfl)
  have eR14 : ∀ k : Fin 4096, ridx_main_v14 i k = ix2 (i 1) k := fun k =>
    funext fun a => Fin.ext (by match a with | ⟨0, _⟩ => rfl | ⟨1, _⟩ => rfl)
  have e19 : ∀ k : Fin 4096, idx_main_v19 (idx_main_v20 (idx_main_v22 i)) k = ix2 (i 0) k := fun k =>
    funext fun a => Fin.ext (by match a with | ⟨0, _⟩ => rfl | ⟨1, _⟩ => rfl)
  have e15 : idx_main_v15 (idx_main_v16 i) = ix1 (i 1) :=
    funext fun a => Fin.ext (by match a with | ⟨0, _⟩ => rfl)
  have e18 : idx_main_v18 (idx_main_v21 i) = ix1 (i 1) :=
    funext fun a => Fin.ext (by match a with | ⟨0, _⟩ => rfl)
  have e30 : idx_main_v30 (idx_main_v31 i) = ix1 (i 1) :=
    funext fun a => Fin.ext (by match a with | ⟨0, _⟩ => rfl)
  have eL25 : ∀ (r : Fin 16) (k : Fin 4096), lidx_main_v25 (lidx_main_v26 i r) k = ix2 (i 0) k := fun r k =>
    funext fun a => Fin.ext (by match a with | ⟨0, _⟩ => rfl | ⟨1, _⟩ => rfl)
  have eR25 : ∀ (r : Fin 16) (k : Fin 4096), ridx_main_v25 (lidx_main_v26 i r) k = ix2 r k := fun r k =>
    funext fun a => Fin.ext (by match a with | ⟨0, _⟩ => rfl | ⟨1, _⟩ => rfl)
  have eR26 : ∀ r : Fin 16, ridx_main_v26 i r = ix2 (i 1) r := fun r =>
    funext fun a => Fin.ext (by match a with | ⟨0, _⟩ => rfl | ⟨1, _⟩ => rfl)
  rw [val_main_v32_apply, val_main_v29_apply, val_main_v24_apply, val_main_v17_apply, val_main_v14_apply,
    val_main_v16_apply, val_main_v15_apply, val_main_v23_apply, val_main_v21_apply, val_main_v18_apply,
    val_main_v22_apply, val_main_v20_apply, val_main_v19_apply, val_main_cst_apply, val_main_v28_apply,
    val_main_v27_apply, val_main_cst_2_apply, val_main_v26_apply, val_main_v31_apply, val_main_v30_apply]
  simp only [val_main_v25_apply, eL14, eR14, e19, e15, e18, e30, eL25, eR25, eR26,
    TernaryLayer.layer, TernaryLayer.blended, Ideal.addf_def, Ideal.mulf_def, Ideal.ofBits_def,
    Ideal.ofBits_zero_f32, zero_add]
  exact congrArg₂ (· + ·) (congrArg₂ (· + ·) (congrArg₂ (· + ·) rfl (mul_comm _ _)) rfl) rfl

end Cert.ReferenceIdeal.Whole

end
-- ==== Proof.lean ====
/-
  A ternary linear layer with a low-rank correction: the tiled evaluation equals the reference.

  Both programs compute, for token `t` and output feature `o`,

    y[t, o] = (∑ₖ x[t,k] · W[o,k]) · α[o] + (∑ₖ x[t,k]) · μ[o] + 1 · (∑ᵣ (∑ₖ x[t,k] · A[r,k]) · B[o,r]) + β[o]

  with `W` the ternary weights unpacked from two-bit codes (`TernaryLayer.layer`).  The tiled program unpacks
  the weights, forms the projection `x Aᵀ` once, and computes the result in `256 × 1024` tiles, each from full rows
  of its operands; the reference computes whole-array products.  Over the extended reals the two agree entry by entry:
  the weights are the same integers converted to floats (the float format of the conversion does not matter there), a
  tile's two matrix products and row sum are the same sums over the full contraction range as the reference's, and the
  only rearrangement is the order of the two factors of the shift term.  No step uses that the inputs are finite.

  The pieces: `Spec` states the layer; `Tile` and `TileEntry` read one tile entry by entry; `Tiling` shows the
  128 tiles are the blocks of the layer's value and cover the output; `Operands` reads the prepared arrays back to the
  parameters; `Reference` reads the reference as the layer.
-/
import proofs.«420316_j34686155882822_3_alg».proof.Defs
import proofs.«420316_j34686155882822_3_alg».proof.Proof.Gen.Kernel
import proofs.«420316_j34686155882822_3_alg».proof.Proof.Gen.Kernel.Skeleton
import proofs.«420316_j34686155882822_3_alg».proof.Proof.Gen.Kernel.Launch
import proofs.«420316_j34686155882822_3_alg».proof.Proof.Gen.Kernel.Points
import proofs.«420316_j34686155882822_3_alg».proof.Proof.Gen.Kernel.Frame
import proofs.«420316_j34686155882822_3_alg».proof.Proof.Gen.KernelIdeal
import proofs.«420316_j34686155882822_3_alg».proof.Proof.Gen.KernelIdeal.Skeleton
import proofs.«420316_j34686155882822_3_alg».proof.Proof.Gen.KernelIdeal.Launch
import proofs.«420316_j34686155882822_3_alg».proof.Proof.Gen.KernelIdeal.Points
import proofs.«420316_j34686155882822_3_alg».proof.Proof.Gen.KernelIdeal.Frame
import proofs.«420316_j34686155882822_3_alg».proof.Proof.Gen.ReferenceIdeal
import proofs.«420316_j34686155882822_3_alg».proof.Proof.Gen.KernelIdeal.Value
import proofs.«420316_j34686155882822_3_alg».proof.Proof.Gen.ReferenceIdeal.Run
import proofs.«420316_j34686155882822_3_alg».proof.Proof.Gen.ReferenceIdeal.Read
import proofs.«420316_j34686155882822_3_alg».proof.Proof.Gen.Pre_finite_inputs
import proofs.«420316_j34686155882822_3_alg».proof.Proof.Tiling
import proofs.«420316_j34686155882822_3_alg».proof.Proof.Operands
import proofs.«420316_j34686155882822_3_alg».proof.Proof.Reference
import Idealize.ShloMosaic.Adequacy
import Idealize.ShloMosaic.Init

noncomputable section

namespace Cert.Proof

open Idealize.ShloMosaic Idealize.ShloMosaic.TcCoe Idealize.SL.Sem

/-- The two programs unpack the packed words by the same integer operations, and converting an integer to a float
    is, over the extended reals, the integer itself whatever the float format: the two weight matrices are one. -/
theorem weights_agree (p : (⟨Cert.ReferenceIdeal.S4096x256, .i32⟩ : BufTy).Contents (Elt Ideal)) :
    Cert.ReferenceIdeal.Read.val_main_v13 (F := Ideal) p
      = (sitofp .bf16 (Cert.KernelIdeal.Operands.unpack (F := Ideal) p) : FVec Ideal Cert.KernelIdeal.S4096x4096 .bf16) :=
  rfl

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both runs end with the output at `TernaryLayer.layer` of the (agreeing) parameters. -/
theorem algebraic : Cert.algebraic_KernelIdeal_ReferenceIdeal := by
  intro m ρ m' ρ' _ hagree
  refine ⟨fun c => Cert.KernelIdeal.Tiling.value m c, Cert.KernelIdeal.Tiling.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v32_eq, Cert.ReferenceIdeal.Whole.reference_is_layer, a0, a1, a2, a3, a4, a5, a6,
    weights_agree]
  exact (Cert.KernelIdeal.Operands.prepared_layer m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
